-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S5000x128 : Shape := ⟨2, ![5000, 128]⟩
abbrev S3x128x128 : Shape := ⟨3, ![3, 128, 128]⟩
abbrev S3x128 : Shape := ⟨2, ![3, 128]⟩
abbrev S_ : Shape := ⟨0, ![]⟩

class Facts : Prop where
  bcast_S_S5000x128 : S_.BroadcastsInDim S5000x128 (![] : Fin 0 → Fin S5000x128.rank)
  reducesTo_S5000x128_S_d0_1 : S5000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg0 : IVec S100000 32) (main_v13 : IVec S_ 1) (main_v15 : IVec S100000 1) (main_c_5 : IVec S_ 32) : IVec S_ 1 :=
  let main_v16 : IVec S100000 32 := broadcastInDim S100000 ![] bcast_S_S100000 main_c_5
  let main_v17 : IVec S100000 1 := cmpi .slt main_arg0 main_v16
  let main_v18 : IVec S100000 1 := andi main_v15 main_v17
  let main_c_6 : IVec S_ 1 := constantI S_ 1 1#1
  let main_v19 : IVec S_ 1 := (fun x v => Host.reduce IntOp.andi x v reducesTo_S100000_S_d0 h_S_) main_v18 main_c_6
  let main_v20 : IVec S_ 1 := andi main_v13 main_v19
  main_v20

def fn {F : FTy → Type} [FloatOps F] (main_arg0 : IVec S100000 32) (main_arg1 : IVec S1600000 32) (main_arg2 : IVec S1600000 32) (main_arg3 : FVec F S5000x128 .f32) (main_arg4 : FVec F S3x128x128 .f32) (main_arg5 : FVec F S3x128 .f32) : IVec S_ 1 :=
  let main_v0 : FVec F S5000x128 .f32 := Host.absf main_arg3
  let main_cst : FVec F S_ .f32 := constant S_ .f32 0x7F800000#32
  let main_v1 : FVec F S5000x128 .f32 := broadcastInDim S5000x128 ![] bcast_S_S5000x128 main_cst
  let main_v2 : IVec S5000x128 1 := cmpf .olt main_v0 main_v1
  let main_c : IVec S_ 1 := constantI S_ 1 1#1
  let main_v3 : IVec S_ 1 := (fun x v => Host.reduce IntOp.andi x v reducesTo_S5000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg0 main_v14
  let main_c_5 : IVec S_ 32 := constantI S_ 32 5000#32
  fn_part1 (F := F) main_arg0 main_v13 main_v15 main_c_5
-- ==== Kernel.lean ====
abbrev S100000 : Shape := ⟨1, ![100000]⟩
abbrev S1600000 : Shape := ⟨1, ![1600000]⟩
abbrev S5000x128 : Shape := ⟨2, ![5000, 128]⟩
abbrev S3x128x128 : Shape := ⟨3, ![3, 128, 128]⟩
abbrev S3x128 : Shape := ⟨2, ![3, 128]⟩
abbrev S_ : Shape := ⟨0, ![]⟩
abbrev S5120x128 : Shape := ⟨2, ![5120, 128]⟩
abbrev S100000x1 : Shape := ⟨2, ![100000, 1]⟩
abbrev S100000x128 : Shape := ⟨2, ![100000, 128]⟩
abbrev S800x1 : Shape := ⟨2, ![800, 1]⟩
abbrev S800x128 : Shape := ⟨2, ![800, 128]⟩
abbrev S1x5120 : Shape := ⟨2, ![1, 5120]⟩
abbrev S800x5120 : Shape := ⟨2, ![800, 5120]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x1 : Shape := ⟨2, ![5000, 1]⟩

abbrev nBuf : Space → Nat
  | .hbm => 85
  | .vmem => 35
  | .smem => 0
  | _ => 0

abbrev bufTy : (tb : Table) → Fin (tcTables nBuf tb) → BufTy
  | .hbm, ⟨0, _⟩ => ⟨S100000, .i32⟩
  | .hbm, ⟨1, _⟩ => ⟨S1600000, .i32⟩
  | .hbm, ⟨2, _⟩ => ⟨S1600000, .i32⟩
  | .hbm, ⟨3, _⟩ => ⟨S5000x128, .f32⟩
  | .hbm, ⟨4, _⟩ => ⟨S3x128x128, .f32⟩
  | .hbm, ⟨5, _⟩ => ⟨S3x128, .f32⟩
  | .hbm, ⟨6, _⟩ => ⟨S_, .i32⟩
  | .hbm, ⟨7, _⟩ => ⟨S_, .f32⟩
  | .hbm, ⟨8, _⟩ => ⟨S5120x128, .f32⟩
  | .hbm, ⟨9, _⟩ => ⟨S5120x128, .bf16⟩
  | .hbm, ⟨10, _⟩ => ⟨S100000x1, .i32⟩
  | .hbm, ⟨11, _⟩ => ⟨S100000x128, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128x128, .f32⟩
  | .hbm, ⟨39, _⟩ => ⟨S128x128, .f32⟩
  | .hbm, ⟨40, _⟩ => ⟨S128x128, .bf16⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128x128, .f32⟩
  | .hbm, ⟨59, _⟩ => ⟨S128x128, .f32⟩
  | .hbm, ⟨60, _⟩ => ⟨S128x128, .bf16⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S1x128x128, .f32⟩
  | .hbm, ⟨79, _⟩ => ⟨S128x128, .f32⟩
  | .hbm, ⟨80, _⟩ => ⟨S128x128, .bf16⟩
  | .hbm, ⟨81, _⟩ => ⟨S1x128, .f32⟩
  | .hbm, ⟨82, _⟩ => ⟨S128, .f32⟩
  | .hbm, ⟨83, _⟩ => ⟨S1x128, .f32⟩
  | .hbm, ⟨84, _⟩ => ⟨S100000x128, .f32⟩
  | .local _ .vmem, ⟨0, _⟩ => ⟨S800x1, .i32⟩
  | .local _ .vmem, ⟨1, _⟩ => ⟨S800x1, .i32⟩
  | .local _ .vmem, ⟨2, _⟩ => ⟨S5120x128, .bf16⟩
  | .local _ .vmem, ⟨3, _⟩ => ⟨S800x128, .f32⟩
  | .local _ .vmem, ⟨4, _⟩ => ⟨S800x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128x128, .bf16⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128x128, .bf16⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128x128, .bf16⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  pads_S5000x128_S5120x128_01200_000 : S5000x128.Pads (![0, 0] : Fin 2 → Nat) ![120, 0] ![0, 0] S5120x128
  h_S_ : 0 < S_.numel
  bitsLt_bf16_f32 : FTy.bits .bf16 < FTy.bits .f32
  shapeCasts_S100000_S100000x1 : S100000.ShapeCasts S100000x1
  inb_S800x1_S800x1_0_0 : ∀ a, (![0, 0] : Fin 2 → Nat) a + S800x1.size a ≤ S800x1.size a
  h_S800x1 : 0 < S800x1.numel
  shapeCasts_S800x1_S800x1 : S800x1.ShapeCasts S800x1
  iota_S1x5120_d1_w32 : S1x5120.Iotas .tc 32 [1]
  broadcasts_S800x1_S800x5120 : S800x1.Broadcasts S800x5120
  broadcasts_S1x5120_S800x5120 : S1x5120.Broadcasts S800x5120
  natLt_1_32 : 1 < 32
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S800x128_S800x128_0_0 : ∀ a, (![0, 0] : Fin 2 → Nat) a + S800x128.size a ≤ S800x128.size a
  h_S800x128 : 0 < S800x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S800x5120_S5120x128_S800x128_1_0_0_1_n_n_wf : DotDims.WF S800x5120 S5120x128 S800x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x1.size a ≤ S100000x1.size a
  hwx0_0 : ∀ i : grid0.Coords, EltTy.bits .i32 = 32 ∨ (Rect.block (s := S100000x1) S800x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S5120x128.size a
  hwx0_1 : ∀ i : grid0.Coords, EltTy.bits .bf16 = 32 ∨ (Rect.block (s := S5120x128) S5120x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x128.size a ≤ S100000x128.size a
  hwx0_2 : ∀ i : grid0.Coords, EltTy.bits .f32 = 32 ∨ (Rect.block (s := S100000x128) S800x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def dot_S800x5120_S5120x128_S800x128_1_0_0_1_n_n : DotDims S800x5120 S5120x128 S800x128 where
  lhsContracting := [1]
  rhsContracting := [0]
  lhsNonContracting := [0]
  rhsNonContracting := [1]
  lhsBatch := []
  rhsBatch := []
  wf := dot_S800x5120_S5120x128_S800x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v2) S800x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5120x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S800x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000 : Shape := ⟨1, ![100000]⟩
abbrev S1600000 : Shape := ⟨1, ![1600000]⟩
abbrev S5000x128 : Shape := ⟨2, ![5000, 128]⟩
abbrev S3x128x128 : Shape := ⟨3, ![3, 128, 128]⟩
abbrev S3x128 : Shape := ⟨2, ![3, 128]⟩
abbrev S_ : Shape := ⟨0, ![]⟩
abbrev S100000x1 : Shape := ⟨2, ![100000, 1]⟩
abbrev S100000x128 : Shape := ⟨2, ![100000, 128]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 111
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1600000, .i32⟩
  | .hbm, ⟨2, _⟩ => ⟨S1600000, .i32⟩
  | .hbm, ⟨3, _⟩ => ⟨S5000x128, .f32⟩
  | .hbm, ⟨4, _⟩ => ⟨S3x128x128, .f32⟩
  | .hbm, ⟨5, _⟩ => ⟨S3x128, .f32⟩
  | .hbm, ⟨6, _⟩ => ⟨S_, .i32⟩
  | .hbm, ⟨7, _⟩ => ⟨S100000, .i32⟩
  | .hbm, ⟨8, _⟩ => ⟨S100000, .i1⟩
  | .hbm, ⟨9, _⟩ => ⟨S_, .i32⟩
  | .hbm, ⟨10, _⟩ => ⟨S100000, .i32⟩
  | .hbm, ⟨11, _⟩ => ⟨S100000, .i32⟩
  | .hbm, ⟨12, _⟩ => ⟨S100000, .i32⟩
  | .hbm, ⟨13, _⟩ => ⟨S100000x1, .i32⟩
  | .hbm, ⟨14, _⟩ => ⟨S100000x128, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S1x128x128, .f32⟩
  | .hbm, ⟨45, _⟩ => ⟨S128x128, .f32⟩
  | .hbm, ⟨46, _⟩ => ⟨S100000x128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x128x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S100000x128, .f32⟩
  | .hbm, ⟨97, _⟩ => ⟨S100000x1, .f32⟩
  | .hbm, ⟨98, _⟩ => ⟨S100000x128, .f32⟩
  | .hbm, ⟨99, _⟩ => ⟨S100000x128, .f32⟩
  | .hbm, ⟨100, _⟩ => ⟨S1x128x128, .f32⟩
  | .hbm, ⟨101, _⟩ => ⟨S128x128, .f32⟩
  | .hbm, ⟨102, _⟩ => ⟨S100000x128, .f32⟩
  | .hbm, ⟨103, _⟩ => ⟨S1x128, .f32⟩
  | .hbm, ⟨104, _⟩ => ⟨S128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_cst : Ref sig .tc := ⟨.hbm, 52, rfl⟩
abbrev main_call0_v0 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_cst : Ref sig .tc := ⟨.hbm, 80, rfl⟩
abbrev main_call1_v0 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_call2_cst : Ref sig .tc := ⟨.hbm, 108, rfl⟩
abbrev main_call2_v0 : Ref sig .tc := ⟨.hbm, 109, rfl⟩
abbrev main_v83 : Ref sig .tc := ⟨.hbm, 110, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S5000x128_S100000x1_S100000x128_1_0_n_n_0_1_1128_wf : GatherDims.WF S5000x128 S100000x1 S100000x128 [1] [0] [] [0] [] 1 ![1, 128]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S5000x128_S100000x1_S100000x128_1_0_n_n_0_1_1128 : GatherDims S5000x128 S100000x1 S100000x128 where
  offsetDims := [1]
  collapsedSliceDims := [0]
  operandBatchingDims := []
  startIndicesBatchingDims := []
  startIndexMap := [0]
  indexVectorDim := 1
  sliceSizes := ![1, 128]
  wf := gather_S5000x128_S100000x1_S100000x128_1_0_n_n_0_1_1128_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The two functions the program is made of, on the extended reals, index by index.

  * `embedAt`: row `p` of the embedding lookup written as a product with a one-hot row: the sum over the table's
    rows `v` of `[ann p = v] · tab v q`. Exactly one summand survives (`0 · x = 0` for every extended real), so the sum
    is the table's row `ann p` whenever that row exists (`sum_oneHot`).
  * `layerAt`: one graph-convolution layer at node `p`, feature `q`:
    `max (∑ k, ((h p k + agg p k) · inv p) · w k q + b q) 0`.
    It is stated for any number of rows, so that the same formula reads a 5000-row block and the whole
    100000-row array; a block of the layer is the layer of the blocks because row `p` depends on row `p` only.
-/
import Idealize.ShloMosaic.PureOps.Ideal
import Idealize.ShloMosaic.Lib.ValueIdx

noncomputable section

open scoped BigOperators

namespace Cert.Sage

open Idealize.ShloMosaic Idealize.ShloMosaic.ValueIdx

/-- The one-hot weight of table row `v` for the token `a`: `1` when `a` is the word `v`, else `0`. -/
def oneHot (a : BitVec 32) (v : Nat) : EReal := if a = BitVec.ofNat 32 v then 1 else 0

/-- Row `p`, column `q` of the one-hot product: `∑ v, [ann p = v] · tab v q`. -/
def embedAt {n V : Nat} (ann : (⟨2, ![n, 1]⟩ : Shape).Idx → BitVec 32) (tab : (⟨2, ![V, 128]⟩ : Shape).Idx → EReal)
    (p : Fin n) (q : Fin 128) : EReal :=
  ∑ v : Fin V, oneHot (ann (ix2 p (0 : Fin 1))) v.val * tab (ix2 v q)

/-- The one-hot product as an array. -/
def embed {n V : Nat} (ann : (⟨2, ![n, 1]⟩ : Shape).Idx → BitVec 32) (tab : (⟨2, ![V, 128]⟩ : Shape).Idx → EReal) :
    (⟨2, ![n, 128]⟩ : Shape).Idx → EReal :=
  fun i => embedAt ann tab (i 0) (i 1)

/-- A one-hot sum picks its row: if the token is the word of a row `r` of the table, the sum is `f r`.
    No finiteness is needed: `0 · x = 0` and `0 + x = x` on every extended real. -/
theorem sum_oneHot {V : Nat} (hV : V ≤ 2 ^ 32) (a : BitVec 32) (r : Fin V) (ha : a = BitVec.ofNat 32 r.val)
    (f : Fin V → EReal) : ∑ v : Fin V, oneHot a v.val * f v = f r := by
  rw [Finset.sum_eq_single r]
  · unfold oneHot; rw [if_pos ha, one_mul]
  · intro v _ hv
    unfold oneHot
    rw [if_neg, zero_mul]
    intro h
    apply hv
    apply Fin.ext
    have h1 : (BitVec.ofNat 32 v.val).toNat = (BitVec.ofNat 32 r.val).toNat := by rw [← h, ha]
    rw [BitVec.toNat_ofNat, BitVec.toNat_ofNat, Nat.mod_eq_of_lt (lt_of_lt_of_le v.isLt hV),
      Nat.mod_eq_of_lt (lt_of_lt_of_le r.isLt hV)] at h1
    exact h1
  · intro h; exact absurd (Finset.mem_univ r) h

/-- One layer at node `p`, feature `q`: the self row plus the aggregated neighbours, scaled by the node's
    `1 / (deg + 1)`, through the weight matrix, plus the bias, clipped below at zero. -/
def layerAt {n : Nat} (h agg : (⟨2, ![n, 128]⟩ : Shape).Idx → EReal) (inv : (⟨2, ![n, 1]⟩ : Shape).Idx → EReal)
    (w : (⟨2, ![128, 128]⟩ : Shape).Idx → EReal) (b : (⟨2, ![1, 128]⟩ : Shape).Idx → EReal) (p : Fin n) (q : Fin 128) : EReal :=
  max ((∑ k : Fin 128, ((h (ix2 p k) + agg (ix2 p k)) * inv (ix2 p (0 : Fin 1))) * w (ix2 k q)) + b (ix2 (0 : Fin 1) q)) 0

/-- One layer as an array. -/
def layer {n : Nat} (h agg : (⟨2, ![n, 128]⟩ : Shape).Idx → EReal) (inv : (⟨2, ![n, 1]⟩ : Shape).Idx → EReal)
    (w : (⟨2, ![128, 128]⟩ : Shape).Idx → EReal) (b : (⟨2, ![1, 128]⟩ : Shape).Idx → EReal) :
    (⟨2, ![n, 128]⟩ : Shape).Idx → EReal :=
  fun i => layerAt h agg inv w b (i 0) (i 1)

end Cert.Sage

end
-- ==== Proof.Payload.lean ====
/-
  The two kernel bodies' stored values, read at one element.

  The embedding body compares each token with the row numbers `0 … 5119`, turns the comparison into the
  floats `1` / `0` and multiplies that one-hot matrix with the (padded) table: at row `p`, column `q` this is
  `Cert.Sage.embedAt`. The layer body adds the block of node features and the block of aggregated neighbours,
  scales each row by the node's factor, multiplies with the weight matrix, adds the bias row and clips at zero:
  `Cert.Sage.layerAt`. A matrix product into the zero accumulator is the plain sum over the contracted axis,
  re-indexed by that axis's coordinate; the format changes are the identity on the extended reals.
-/
import proofs.«408994_j13271448945380_1_alg».proof.Proof.Gen.KernelIdeal.Skeleton
import proofs.«408994_j13271448945380_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## A column broadcast over many columns -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot entry -/

/-- "Token equals row number", widened to a word and read as a float, is the one-hot weight. -/
theorem oneHot_word (a : BitVec 32) (v : Nat) :
    FloatOps.sitofp (F := Ideal) .f32 ((IntOp.cmpi .eq a (BitVec.ofNat 32 v)).setWidth 32) = Cert.Sage.oneHot a v := by
  unfold Cert.Sage.oneHot
  by_cases h : a = BitVec.ofNat 32 v
  · rw [if_pos h, h]
    show (((((IntOp.cmpi .eq (BitVec.ofNat 32 v) (BitVec.ofNat 32 v)).setWidth 32).toInt : ℤ) : ℝ) : EReal) = 1
    simp [IntOp.cmpi]
  · rw [if_neg h]
    show (((((IntOp.cmpi .eq a (BitVec.ofNat 32 v)).setWidth 32).toInt : ℤ) : ℝ) : EReal) = 0
    have hb : (a == BitVec.ofNat 32 v) = false := beq_eq_false_iff_ne.mpr h
    simp [IntOp.cmpi, hb]

/-! ## The layer body at one element -/

theorem lhs_sage_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_sage_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_sage_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_sage_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p`, column `q`: the sum over the 128 contracted
    columns of the left row times the right column. -/
theorem sage_matmul_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_sage_0 _ _
    | ⟨1, _⟩ => exact (lhs_sage_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_sage_0 _ _).trans hk
    | ⟨1, _⟩ => exact rhs_sage_1 _ _)
  rw [el, er]

/-- The layer body's stored value at row `p`, column `q` of the block is the layer formula of the loaded blocks. -/
theorem sage_pay_apply (x0 x1 : Vec Ideal S5000x128 .f32) (x2 : Vec Ideal S5000x1 .f32) (x3 : Vec Ideal S128x128 .bf16)
    (x4 : Vec Ideal S1x128 .f32) (p : Fin 5000) (q : Fin 128) :
    k1_pay1 (F := Ideal) x0 x1 x2 x3 x4 (ix2 p q) = Cert.Sage.layerAt x0 x1 x2 x3 x4 p q := by
  unfold k1_pay1 Cert.Sage.layerAt
  simp only [shapeCast_self]
  rw [maximumf_apply, addf_apply, sage_matmul_apply, broadcastTo_1b_ab_apply]
  refine congrArg₂ max (congrArg₂ (· + ·) (Finset.sum_congr rfl fun k _ => ?_) rfl) ?_
  · rw [truncf_apply, mulf_apply, addf_apply, broadcastTo_a1_ab_apply]
  · show Ideal.ofBits .f32 0x00000000#32 = 0
    exact Ideal.ofBits_zero_f32

/-! ## The embedding body at one element -/

theorem lhs_emb_0 (i : S800x128.Idx) (q : dot_S800x5120_S5120x128_S800x128_1_0_0_1_n_n.contr.Idx) :
    (dot_S800x5120_S5120x128_S800x128_1_0_0_1_n_n.lhsIdx i q 0).val = (i 0).val := by
  unfold DotDims.lhsIdx
  rw [dif_neg (show ¬(0 : Fin S800x5120.rank) ∈ dot_S800x5120_S5120x128_S800x128_1_0_0_1_n_n.lhsBatch by decide), dif_pos (show (0 : Fin S800x5120.rank) ∈ dot_S800x5120_S5120x128_S800x128_1_0_0_1_n_n.lhsNonContracting by decide)]
  rfl
theorem lhs_emb_1 (i : S800x128.Idx) (q : dot_S800x5120_S5120x128_S800x128_1_0_0_1_n_n.contr.Idx) :
    (dot_S800x5120_S5120x128_S800x128_1_0_0_1_n_n.lhsIdx i q 1).val = (q ⟨0, by decide⟩).val :=
  dot_S800x5120_S5120x128_S800x128_1_0_0_1_n_n.lhsIdx_val_of_single rfl i q
theorem rhs_emb_0 (i : S800x128.Idx) (q : dot_S800x5120_S5120x128_S800x128_1_0_0_1_n_n.contr.Idx) :
    (dot_S800x5120_S5120x128_S800x128_1_0_0_1_n_n.rhsIdx i q 0).val = (q ⟨0, by decide⟩).val :=
  dot_S800x5120_S5120x128_S800x128_1_0_0_1_n_n.rhsIdx_val_of_single rfl i q
theorem rhs_emb_1 (i : S800x128.Idx) (q : dot_S800x5120_S5120x128_S800x128_1_0_0_1_n_n.contr.Idx) :
    (dot_S800x5120_S5120x128_S800x128_1_0_0_1_n_n.rhsIdx i q 1).val = (i 1).val := by
  unfold DotDims.rhsIdx
  rw [dif_neg (show ¬(1 : Fin S5120x128.rank) ∈ dot_S800x5120_S5120x128_S800x128_1_0_0_1_n_n.rhsBatch by decide), dif_pos (show (1 : Fin S5120x128.rank) ∈ dot_S800x5120_S5120x128_S800x128_1_0_0_1_n_n.rhsNonContracting by decide)]
  rfl

/-- The one-hot product into the zero accumulator, at row `p`, column `q`: the sum over the 5120 table rows. -/
theorem embed_matmul_apply (l : FVec Ideal S800x5120 .bf16) (r : FVec Ideal S5120x128 .bf16) (p : Fin 800) (q : Fin 128) :
    matmul dot_S800x5120_S5120x128_S800x128_1_0_0_1_n_n none l r (constant S800x128 .f32 0x00000000#32) (ix2 p q)
      = ∑ v : Fin 5120, l (ix2 p v) * r (ix2 v q) := by
  simp only [matmul]
  rw [Ideal.matmul_constant_zero_apply, ← Equiv.sum_comp (ValueIdx.contrEquiv1 dot_S800x5120_S5120x128_S800x128_1_0_0_1_n_n 5120 rfl rfl).symm]
  refine Finset.sum_congr rfl fun k _ => ?_
  have hk := ValueIdx.contrEquiv1_symm_val dot_S800x5120_S5120x128_S800x128_1_0_0_1_n_n 5120 rfl rfl k
  have el : dot_S800x5120_S5120x128_S800x128_1_0_0_1_n_n.lhsIdx (ix2 p q) ((ValueIdx.contrEquiv1 dot_S800x5120_S5120x128_S800x128_1_0_0_1_n_n 5120 rfl rfl).symm k) = ix2 p k := funext fun a => Fin.ext (by
    match a with
    | ⟨0, _⟩ => exact lhs_emb_0 _ _
    | ⟨1, _⟩ => exact (lhs_emb_1 _ _).trans hk)
  have er : dot_S800x5120_S5120x128_S800x128_1_0_0_1_n_n.rhsIdx (ix2 p q) ((ValueIdx.contrEquiv1 dot_S800x5120_S5120x128_S800x128_1_0_0_1_n_n 5120 rfl rfl).symm k) = ix2 k q := funext fun a => Fin.ext (by
    match a with
    | ⟨0, _⟩ => exact (rhs_emb_0 _ _).trans hk
    | ⟨1, _⟩ => exact rhs_emb_1 _ _)
  rw [el, er]

/-- The embedding body's stored value at row `p`, column `q` of the block is the one-hot sum of the loaded
    token column and table. -/
theorem embed_pay_apply (x0 : Vec Ideal S800x1 .i32) (x1 : Vec Ideal S5120x128 .bf16) (p : Fin 800) (q : Fin 128) :
    k0_pay1 (F := Ideal) x0 x1 (ix2 p q) = Cert.Sage.embedAt x0 x1 p q := by
  unfold k0_pay1 Cert.Sage.embedAt
  simp only [shapeCast_self]
  rw [embed_matmul_apply]
  refine Finset.sum_congr rfl fun v _ => ?_
  refine congrArg (· * x1 (ix2 v q)) ?_
  rw [truncf_apply, sitofp_apply, extui_apply]
  show FloatOps.sitofp (F := Ideal) .f32 ((IntOp.cmpi .eq (broadcastTo S800x5120 x0 broadcasts_S800x1_S800x5120 (ix2 p v))
      (broadcastTo S800x5120 (iota .tc S1x5120 32 [1] iota_S1x5120_d1_w32) broadcasts_S1x5120_S800x5120 (ix2 p v))).setWidth 32) = _
  rw [broadcastTo_a1_ab_apply, broadcastTo_1b_ab_apply, iota_single_apply]
  exact oneHot_word _ _

/-- The three layer bodies are one text. -/
theorem k2_pay1_eq : @k2_pay1 = @k1_pay1 := rfl
theorem k3_pay1_eq : @k3_pay1 = @k1_pay1 := rfl

end Cert.KernelIdeal.Payload

end
-- ==== Proof.Embed0.lean ====
/-
  Region 0 of the program (the embedding lookup as a one-hot product, over 125 blocks of 800 nodes): the array it
  leaves.

  Grid point `t` stages tokens `800·t … 800·t + 799` and the whole padded table, and writes back the same rows of
  the result. Row `p` of the one-hot product depends on token `p` only, so what point `t` writes back is block `t` of
  the one-hot product of the whole token column with the table; the 125 blocks tile the 100000 rows.
-/
import proofs.«408994_j13271448945380_1_alg».proof.Proof.Gen.KernelIdeal.Frame
import proofs.«408994_j13271448945380_1_alg».proof.Proof.Payload
import Idealize.ShloMosaic.Lib.Pipeline.Value

noncomputable section

namespace Cert.KernelIdeal.Embed0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The one-hot product of the token column and the table region 0 finds in its two input windows. -/
abbrev G (c : Dev nD) : S100000x128.Idx → Elt Ideal .f32 :=
  Cert.Sage.embed (n := 100000) (V := 5120) (V c main_v2) (V c main_v1)

/-- The printed index maps over the 125 grid points: the token window and the output move with the point, the
    table stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the one-hot product of the whole arrays. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S800x1) hz, View.ld_unit_zero (S := S5120x128) hz]
  obtain ⟨e00, e01, e10, e11, e20, e21⟩ := idx_facts t
  funext j
  obtain ⟨p, q, rfl⟩ : ∃ (p : Fin 800) (q : Fin 128), j = ix2 p q := ⟨j 0, j 1, eq_ix2 j⟩
  have ht : t.val < 125 := by have h := t.isLt; have hN : cfg0.N = 125 := N_0; omega
  have hr : t.val * 800 + p.val < 100000 := by have := p.isLt; omega
  have hE : ((cfg0.win 2).blk t).view.emb (ix2 p q) = ix2 (⟨t.val * 800 + p.val, hr⟩ : Fin 100000) q := by
    funext a; apply Fin.ext
    match a with
    | ⟨0, _⟩ => show win0_2.index t (0 : Fin 2) * 800 + 1 * p.val = t.val * 800 + p.val; omega
    | ⟨1, _⟩ => show win0_2.index t (1 : Fin 2) * 128 + 1 * q.val = q.val; omega
  show k0_pay1 (F := Ideal) (iblk0 V c 0 t) (iblk0 V c 1 t) (ix2 p q) = G V c (((cfg0.win 2).blk t).view.emb (ix2 p q))
  rw [hE]
  refine (Payload.embed_pay_apply _ _ p q).trans ?_
  have h0 : iblk0 V c 0 t (ix2 p (0 : Fin 1)) = V c main_v2 (ix2 (⟨t.val * 800 + p.val, hr⟩ : Fin 100000) (0 : Fin 1)) := by
    show V c main_v2 (((cfg0.win 0).blk t).view.emb (ix2 p (0 : Fin 1))) = _
    refine congrArg (V c main_v2) (funext fun a => Fin.ext ?_)
    match a with
    | ⟨0, _⟩ => show win0_0.index t (0 : Fin 2) * 800 + 1 * p.val = t.val * 800 + p.val; omega
    | ⟨1, _⟩ => show win0_0.index t (1 : Fin 2) * 1 + 1 * 0 = 0; omega
  have h1 : ∀ v : Fin 5120, iblk0 V c 1 t (ix2 v q) = V c main_v1 (ix2 v q) := fun v => by
    show V c main_v1 (((cfg0.win 1).blk t).view.emb (ix2 v q)) = _
    refine congrArg (V c main_v1) (funext fun a => Fin.ext ?_)
    match a with
    | ⟨0, _⟩ => show win0_1.index t (0 : Fin 2) * 5120 + 1 * v.val = v.val; omega
    | ⟨1, _⟩ => show win0_1.index t (1 : Fin 2) * 128 + 1 * q.val = q.val; omega
  show Cert.Sage.embedAt _ _ p q = Cert.Sage.embedAt (n := 100000) (V := 5120) (V c main_v2) (V c main_v1) ⟨t.val * 800 + p.val, hr⟩ q
  unfold Cert.Sage.embedAt
  simp only [h0, h1]

/-- An index of the result array is in point `t`'s block iff its row is among the block's 800 rows. -/
theorem mem_blk (t : Fin cfg0.N) (i : S100000x128.Idx) :
    i ∈ ((cfg0.win 2).blk t).view.set ↔ ∀ a : Fin 2, win0_2.index t a * S800x128.size a ≤ (i a).val ∧ (i a).val < win0_2.index t a * S800x128.size a + S800x128.size a := by
  show i ∈ ((View.whole main_v3).slice (win0_2.rect t)).set ↔ _
  rw [View.set_slice_whole, Rect.mem_set_unit]
  exact Iff.rfl

/-- Every row is in some point's block: row `r` in block `r / 800`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 125 := N_0
  refine ⟨⟨(i 0).val / 800, by omega⟩, flush0_2 _, ?_⟩
  rw [mem_blk]
  obtain ⟨-, -, -, -, e20, e21⟩ := idx_facts ⟨(i 0).val / 800, by omega⟩
  intro a
  match a with
  | ⟨0, _⟩ => show win0_2.index _ (0 : Fin 2) * 800 ≤ (i 0).val ∧ (i 0).val < win0_2.index _ (0 : Fin 2) * 800 + 800; rw [e20]; show (i 0).val / 800 * 800 ≤ (i 0).val ∧ (i 0).val < (i 0).val / 800 * 800 + 800; omega
  | ⟨1, _⟩ => show win0_2.index _ (1 : Fin 2) * 128 ≤ (i 1).val ∧ (i 1).val < win0_2.index _ (1 : Fin 2) * 128 + 128; rw [e21]; omega

/-- The array region 0 leaves in its output window is the one-hot product of the arrays it found. -/
theorem final (c : Dev nD) : (dat0 V c).arrAt 2 cfg0.N = G V c :=
  (dat0 V c).arrAt_eq_of_cover 2 (G V c) (fun t _ => flushed_eq V c t) cover

end Cert.KernelIdeal.Embed0

end
-- ==== Proof.Layer1.lean ====
/-
  Region 1 of the program (one graph-convolution layer over 20 blocks of 5000 nodes): the array it leaves.

  Grid point `t` stages rows `5000·t … 5000·t + 4999` of the node features, of the aggregated neighbours and
  of the per-node factors, the whole weight matrix and the bias row, and writes back the same rows of the result.
  Row `p` of a block of the layer depends on row `p` of those blocks only, so what point `t` writes back is block
  `t` of the layer applied to the whole arrays; the 20 blocks tile the 100000 rows, so the result array is the layer
  of the arrays the region found.
-/
import proofs.«408994_j13271448945380_1_alg».proof.Proof.Gen.KernelIdeal.Frame
import proofs.«408994_j13271448945380_1_alg».proof.Proof.Payload
import Idealize.ShloMosaic.Lib.Pipeline.Value

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays region 1 finds in its five input windows. -/
abbrev G (c : Dev nD) : S100000x128.Idx → Elt Ideal .f32 :=
  Cert.Sage.layer (n := 100000) (V c main_v3) (V c main_v22) (V c main_v12) (V c main_v25) (V c main_v28)

/-- The printed index maps over the 20 grid points: the three row-blocked windows and the output move with the
    point, the weight matrix and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  have ht : t.val < 20 := by have h := t.isLt; have hN : cfg1.N = 20 := N_1; omega
  have hr : t.val * 5000 + p.val < 100000 := by have := p.isLt; omega
  have hE : ((cfg1.win 5).blk t).view.emb (ix2 p q) = ix2 (⟨t.val * 5000 + p.val, hr⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [hE]
  refine (Payload.sage_pay_apply _ _ _ _ _ p q).trans ?_
  have h0 : ∀ k : Fin 128, iblk1 V c 0 t (ix2 p k) = V c main_v3 (ix2 (⟨t.val * 5000 + p.val, hr⟩ : Fin 100000) k) := fun k => by
    show V c main_v3 (((cfg1.win 0).blk t).view.emb (ix2 p k)) = _
    refine congrArg (V c main_v3) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, iblk1 V c 1 t (ix2 p k) = V c main_v22 (ix2 (⟨t.val * 5000 + p.val, hr⟩ : Fin 100000) k) := fun k => by
    show V c main_v22 (((cfg1.win 1).blk t).view.emb (ix2 p k)) = _
    refine congrArg (V c main_v22) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  have h2 : iblk1 V c 2 t (ix2 p (0 : Fin 1)) = V c main_v12 (ix2 (⟨t.val * 5000 + p.val, hr⟩ : Fin 100000) (0 : Fin 1)) := by
    show V c main_v12 (((cfg1.win 2).blk t).view.emb (ix2 p (0 : Fin 1))) = _
    refine congrArg (V c main_v12) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ∀ k : Fin 128, iblk1 V c 3 t (ix2 k q) = V c main_v25 (ix2 k q) := fun k => by
    show V c main_v25 (((cfg1.win 3).blk t).view.emb (ix2 k q)) = _
    refine congrArg (V c main_v25) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have h4 : iblk1 V c 4 t (ix2 (0 : Fin 1) q) = V c main_v28 (ix2 (0 : Fin 1) q) := by
    show V c main_v28 (((cfg1.win 4).blk t).view.emb (ix2 (0 : Fin 1) q)) = _
    refine congrArg (V c main_v28) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  show Cert.Sage.layerAt _ _ _ _ _ p q = Cert.Sage.layerAt (n := 100000) (V c main_v3) (V c main_v22) (V c main_v12) (V c main_v25) (V c main_v28) ⟨t.val * 5000 + p.val, hr⟩ q
  unfold Cert.Sage.layerAt
  simp only [h0, h1, h2, h3, h4]

/-- An index of the result array is in point `t`'s block iff its row is among the block's 5000 rows. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Every row is in some point's block: row `r` in block `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by omega⟩, flush1_5 _, ?_⟩
  rw [mem_blk]
  obtain ⟨-, -, -, -, -, -, -, -, -, -, e50, e51⟩ := idx_facts ⟨(i 0).val / 5000, by omega⟩
  intro a
  match a with
  | ⟨0, _⟩ => show win1_5.index _ (0 : Fin 2) * 5000 ≤ (i 0).val ∧ (i 0).val < win1_5.index _ (0 : Fin 2) * 5000 + 5000; rw [e50]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e51]; omega

/-- The array region 1 leaves in its output window is the layer of the arrays it found. -/
theorem final (c : Dev nD) : (dat1 V c).arrAt 5 cfg1.N = G V c :=
  (dat1 V c).arrAt_eq_of_cover 5 (G V c) (fun t _ => flushed_eq V c t) cover

end Cert.KernelIdeal.Layer1

end
-- ==== Proof.RefSide.lean ====
/-
  The reference program as a composition: the embedding lookup, then three layers.

  Its result term is regrouped as `layerR … (layerR … (layerR … (lookup ann emb)))` over the aggregation
  `agg h` (gather the source rows of `h`, scatter-add them at the destinations) and the node factors
  `inv = 1 / (deg + 1)`; then one layer is read at an element: the host product is the sum over the 128 contracted
  columns, the two broadcasts of the factors and of the bias read row `p` and column `q`, `relu` is `max · 0`. That is
  `Cert.Sage.layer` of `h`, `agg h`, the factors as a column, the weight slice and the bias slice as a row.
-/
import proofs.«408994_j13271448945380_1_alg».proof.Proof.Gen.ReferenceIdeal.Read
import proofs.«408994_j13271448945380_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- Node numbers as gather start indices: a negative number counts from the end, then one column. -/
def wrapCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The neighbour sum: the rows of `h` at the edges' sources, added up at the edges' destinations. -/
def agg (src dst : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h (wrapCol src))

/-- The node factors `1 / (in-degree + 1)`. -/
def inv (dst : IVec S1600000 32) : FVec Ideal S100000 .f32 :=
  Host.divf (broadcastInDim S100000 ![] bcast_S_S100000 (constant S_ .f32 0x3F800000#32))
    (addf (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- One layer of the reference, over a weight matrix `w` and a bias vector `b`. -/
def layerR (src dst : IVec S1600000 32) (w : FVec Ideal S128x128 .f32) (b : FVec Ideal S128 .f32)
    (h : FVec Ideal S100000x128 .f32) : FVec Ideal S100000x128 .f32 :=
  maximumf (addf (Host.dotGeneral dot_S100000x128_S128x128_S100000x128_1_0_0_1_n_n none
      (mulf (addf h (agg src dst h))
        (broadcastInDim S100000x128 ![0, 1] bcast_S100000x1_S100000x128_0_1 (broadcastInDim S100000x1 ![0] bcast_S100000_S100000x1_0 (inv dst))))
      w)
    (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The embedding lookup `emb[ann]`. -/
def lookup (ann : IVec S100000 32) (emb : FVec Ideal S5000x128 .f32) : FVec Ideal S100000x128 .f32 :=
  Host.gather gather_S5000x128_S100000x1_S100000x128_1_0_n_n_0_1_1128 emb
    (broadcastInDim S100000x1 ![0] bcast_S100000_S100000x1_0
      (select (cmpi .slt ann (broadcastInDim S100000 ![] bcast_S_S100000 (constantI S_ 32 0#32)))
        (addi ann (broadcastInDim S100000 ![] bcast_S_S100000 (constantI S_ 32 5000#32))) ann))

/-- Layer `l`'s weight matrix and bias vector out of the stacked arguments. -/
def w0 (ws : FVec Ideal S3x128x128 .f32) : FVec Ideal S128x128 .f32 :=
  shapeCast _ (extractStridedSlice S1x128x128 ![0, 0, 0] ws slices_S3x128x128_S1x128x128_0_0_0) shapeCasts_S1x128x128_S128x128
def w1 (ws : FVec Ideal S3x128x128 .f32) : FVec Ideal S128x128 .f32 :=
  shapeCast _ (extractStridedSlice S1x128x128 ![1, 0, 0] ws slices_S3x128x128_S1x128x128_1_0_0) shapeCasts_S1x128x128_S128x128
def w2 (ws : FVec Ideal S3x128x128 .f32) : FVec Ideal S128x128 .f32 :=
  shapeCast _ (extractStridedSlice S1x128x128 ![2, 0, 0] ws slices_S3x128x128_S1x128x128_2_0_0) shapeCasts_S1x128x128_S128x128
def b0 (bs : FVec Ideal S3x128 .f32) : FVec Ideal S128 .f32 :=
  shapeCast _ (extractStridedSlice S1x128 ![0, 0] bs slices_S3x128_S1x128_0_0) shapeCasts_S1x128_S128
def b1 (bs : FVec Ideal S3x128 .f32) : FVec Ideal S128 .f32 :=
  shapeCast _ (extractStridedSlice S1x128 ![1, 0] bs slices_S3x128_S1x128_1_0) shapeCasts_S1x128_S128
def b2 (bs : FVec Ideal S3x128 .f32) : FVec Ideal S128 .f32 :=
  shapeCast _ (extractStridedSlice S1x128 ![2, 0] bs slices_S3x128_S1x128_2_0) shapeCasts_S1x128_S128

set_option maxRecDepth 8192 in
/-- The reference's result term is the three layers over the lookup. -/
theorem res_eq (m : (ℓ : Loc nD τ sig) → Buf (Elt Ideal) ℓ) (c : Dev nD) :
    Cert.ReferenceIdeal.Value.res_main_v83 (F := Ideal) m c
      = layerR (m ((c.tc : Thread nD τ).loc main_arg1)) (m ((c.tc : Thread nD τ).loc main_arg2))
          (w2 (m ((c.tc : Thread nD τ).loc main_arg4))) (b2 (m ((c.tc : Thread nD τ).loc main_arg5)))
          (layerR (m ((c.tc : Thread nD τ).loc main_arg1)) (m ((c.tc : Thread nD τ).loc main_arg2))
            (w1 (m ((c.tc : Thread nD τ).loc main_arg4))) (b1 (m ((c.tc : Thread nD τ).loc main_arg5)))
            (layerR (m ((c.tc : Thread nD τ).loc main_arg1)) (m ((c.tc : Thread nD τ).loc main_arg2))
              (w0 (m ((c.tc : Thread nD τ).loc main_arg4))) (b0 (m ((c.tc : Thread nD τ).loc main_arg5)))
              (lookup (m ((c.tc : Thread nD τ).loc main_arg0)) (m ((c.tc : Thread nD τ).loc main_arg3))))) := by
  unfold Cert.ReferenceIdeal.Value.res_main_v83; rfl

/-! ## One layer read at an element -/

/-- An `[a]` array cast to a column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The factors broadcast as a column and then over the 128 features read, at `(p, k)`, node `p`'s factor. -/
theorem bcast_inv_apply (x : FVec Ideal S100000 .f32) (p : Fin 100000) (k : Fin 128) :
    broadcastInDim S100000x128 ![0, 1] bcast_S100000x1_S100000x128_0_1 (broadcastInDim S100000x1 ![0] bcast_S100000_S100000x1_0 x) (ix2 p k)
      = x (ix1 p) := by
  rw [broadcastInDim_apply _ bcast_S100000x1_S100000x128_0_1 _ (ix2 p k) (ix2 p (0 : Fin 1)) (fun a => by
    match a with
    | ⟨0, _⟩ => rfl
    | ⟨1, _⟩ => rfl)]
  exact broadcastInDim_apply _ bcast_S100000_S100000x1_0 x (ix2 p (0 : Fin 1)) (ix1 p) (fun a => by
    match a with
    | ⟨0, _⟩ => rfl)

/-- The bias broadcast as a row and then over the 100000 nodes reads, at `(p, q)`, feature `q`'s bias. -/
theorem bcast_bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  rw [broadcastInDim_apply _ bcast_S1x128_S100000x128_0_1 _ (ix2 p q) (ix2 (0 : Fin 1) q) (fun a => by
    match a with
    | ⟨0, _⟩ => rfl
    | ⟨1, _⟩ => rfl)]
  exact broadcastInDim_apply _ bcast_S128_S1x128_1 b (ix2 (0 : Fin 1) q) (ix1 q) (fun a => by
    match a with
    | ⟨0, _⟩ => rfl)

/-- The host product of the reference at row `p`, column `q`: the sum over the 128 contracted columns. -/
theorem dot_apply (l : FVec Ideal S100000x128 .f32) (r : FVec Ideal S128x128 .f32) (p : Fin 100000) (q : Fin 128) :
    Host.dotGeneral dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Cert.ReferenceIdeal.Read.lhs_main_v31_0 _ _
    | ⟨1, _⟩ => exact (Cert.ReferenceIdeal.Read.lhs_main_v31_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Cert.ReferenceIdeal.Read.rhs_main_v31_0 _ _).trans hk
    | ⟨1, _⟩ => exact Cert.ReferenceIdeal.Read.rhs_main_v31_1 _ _)
  rw [el, er]

/-- One layer of the reference is the layer formula of `h`, its neighbour sum, the factors as a column, the
    weights (a change of format is the identity) and the bias as a row. -/
theorem layerR_eq (src dst : IVec S1600000 32) (w : FVec Ideal S128x128 .f32) (b : FVec Ideal S128 .f32)
    (h : FVec Ideal S100000x128 .f32) (hc : S100000.ShapeCasts S100000x1) (hb : S128.ShapeCasts S1x128)
    (hbits : FTy.bits .bf16 < FTy.bits .f32) :
    layerR src dst w b h
      = Cert.Sage.layer (n := 100000) h (agg src dst h) (shapeCast S100000x1 (inv dst) hc) (truncf .bf16 w hbits) (shapeCast S1x128 b hb) := by
  funext i
  obtain ⟨p, q, rfl⟩ : ∃ (p : Fin 100000) (q : Fin 128), i = ix2 p q := ⟨i 0, i 1, eq_ix2 i⟩
  show layerR src dst w b h (ix2 p q) = Cert.Sage.layerAt (n := 100000) h (agg src dst h) (shapeCast S100000x1 (inv dst) hc) (truncf .bf16 w hbits) (shapeCast S1x128 b hb) p q
  unfold layerR Cert.Sage.layerAt
  rw [maximumf_apply, addf_apply, dot_apply, bcast_bias_apply, shapeCast_a_1a_apply, shapeCast_a_a1_apply]
  refine congrArg₂ max (congrArg₂ (· + ·) (Finset.sum_congr rfl fun k _ => ?_) rfl) ?_
  · rw [mulf_apply, addf_apply, bcast_inv_apply, truncf_apply]
  · exact Ideal.ofBits_zero_f32

end Cert.ReferenceIdeal.RefValue

end
-- ==== Proof.KernelValue.lean ====
/-
  What the kernel program's result buffer holds after the run, as a function of the arguments.

  The run alternates stretches of host operations with the four regions. Reading the buffer contents boundary by
  boundary: the host stretch before region 0 reshapes the tokens into a column and pads the table with 120 zero
  rows; region 0 leaves the one-hot product `H0`; each later stretch gathers the current features at the edges'
  sources and scatter-adds them at the destinations, and slices the layer's weights and bias; each later region
  leaves the layer of what it found. The node factors are computed once, before region 1, and no later operation or
  region writes them; no operation and no region writes an argument. So the result is
  `step w2 b2 (step w1 b1 (step w0 b0 H0))`.
-/
import proofs.«408994_j13271448945380_1_alg».proof.Proof.Gen.KernelIdeal.Frame
import proofs.«408994_j13271448945380_1_alg».proof.Proof.Embed0
import proofs.«408994_j13271448945380_1_alg».proof.Proof.Layer1
import proofs.«408994_j13271448945380_1_alg».proof.Proof.Layer2
import proofs.«408994_j13271448945380_1_alg».proof.Proof.Layer3
import proofs.«408994_j13271448945380_1_alg».proof.Proof.RefSide
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Cert.ReferenceIdeal.RefValue (agg inv w0 w1 w2 b0 b1 b2)

variable (m : (ℓ : Loc nD τ sig) → Buf (Elt Ideal) ℓ) (ρ : Dev nD → PrngReg)

/-- A buffer that no operation of a host stretch writes keeps its contents over the stretch. -/
macro "host_keeps" ops:ident : tactic => `(tactic|
  exact StableHlo.after_of_forall_not_mem (b := _) _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments at the boundaries where a host stretch reads them -/

theorem W3_of_W0 (c : Dev nD) (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = m ((c : Thread nD τ).loc b) :=
  h2.trans (h1.trans h0)

theorem W3_arg0 (c : Dev nD) : W3 m ρ c (Proc.devRef .tc main_arg0) = m ((c : Thread nD τ).loc main_arg0) :=
  W3_of_W0 m ρ c main_arg0 (by host_keeps hostOps0) (by host_keeps hostOps0_1) (by host_keeps hostOps0_2)
theorem W3_arg1 (c : Dev nD) : W3 m ρ c (Proc.devRef .tc main_arg1) = m ((c : Thread nD τ).loc main_arg1) :=
  W3_of_W0 m ρ c main_arg1 (by host_keeps hostOps0) (by host_keeps hostOps0_1) (by host_keeps hostOps0_2)
theorem W3_arg2 (c : Dev nD) : W3 m ρ c (Proc.devRef .tc main_arg2) = m ((c : Thread nD τ).loc main_arg2) :=
  W3_of_W0 m ρ c main_arg2 (by host_keeps hostOps0) (by host_keeps hostOps0_1) (by host_keeps hostOps0_2)
theorem W3_arg4 (c : Dev nD) : W3 m ρ c (Proc.devRef .tc main_arg4) = m ((c : Thread nD τ).loc main_arg4) :=
  W3_of_W0 m ρ c main_arg4 (by host_keeps hostOps0) (by host_keeps hostOps0_1) (by host_keeps hostOps0_2)
theorem W3_arg5 (c : Dev nD) : W3 m ρ c (Proc.devRef .tc main_arg5) = m ((c : Thread nD τ).loc main_arg5) :=
  W3_of_W0 m ρ c main_arg5 (by host_keeps hostOps0) (by host_keeps hostOps0_1) (by host_keeps hostOps0_2)

theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

theorem W6_arg1 (c : Dev nD) : W6 m ρ c (Proc.devRef .tc main_arg1) = m ((c : Thread nD τ).loc main_arg1) :=
  (W6_of_ne m ρ c main_arg1 (by decide)).trans ((show W5 m ρ c (Proc.devRef .tc main_arg1) = W4 m ρ c (Proc.devRef .tc main_arg1) by host_keeps hostOps1).trans (W4_arg1 m ρ c))
theorem W6_arg2 (c : Dev nD) : W6 m ρ c (Proc.devRef .tc main_arg2) = m ((c : Thread nD τ).loc main_arg2) :=
  (W6_of_ne m ρ c main_arg2 (by decide)).trans ((show W5 m ρ c (Proc.devRef .tc main_arg2) = W4 m ρ c (Proc.devRef .tc main_arg2) by host_keeps hostOps1).trans (W4_arg2 m ρ c))
theorem W6_arg4 (c : Dev nD) : W6 m ρ c (Proc.devRef .tc main_arg4) = m ((c : Thread nD τ).loc main_arg4) :=
  (W6_of_ne m ρ c main_arg4 (by decide)).trans ((show W5 m ρ c (Proc.devRef .tc main_arg4) = W4 m ρ c (Proc.devRef .tc main_arg4) by host_keeps hostOps1).trans (W4_arg4 m ρ c))
theorem W6_arg5 (c : Dev nD) : W6 m ρ c (Proc.devRef .tc main_arg5) = m ((c : Thread nD τ).loc main_arg5) :=
  (W6_of_ne m ρ c main_arg5 (by decide)).trans ((show W5 m ρ c (Proc.devRef .tc main_arg5) = W4 m ρ c (Proc.devRef .tc main_arg5) by host_keeps hostOps1).trans (W4_arg5 m ρ c))

theorem W8_arg1 (c : Dev nD) : W8 m ρ c (Proc.devRef .tc main_arg1) = m ((c : Thread nD τ).loc main_arg1) :=
  (W8_of_ne m ρ c main_arg1 (by decide)).trans ((show W7 m ρ c (Proc.devRef .tc main_arg1) = W6 m ρ c (Proc.devRef .tc main_arg1) by host_keeps hostOps2).trans (W6_arg1 m ρ c))
theorem W8_arg2 (c : Dev nD) : W8 m ρ c (Proc.devRef .tc main_arg2) = m ((c : Thread nD τ).loc main_arg2) :=
  (W8_of_ne m ρ c main_arg2 (by decide)).trans ((show W7 m ρ c (Proc.devRef .tc main_arg2) = W6 m ρ c (Proc.devRef .tc main_arg2) by host_keeps hostOps2).trans (W6_arg2 m ρ c))
theorem W8_arg4 (c : Dev nD) : W8 m ρ c (Proc.devRef .tc main_arg4) = m ((c : Thread nD τ).loc main_arg4) :=
  (W8_of_ne m ρ c main_arg4 (by decide)).trans ((show W7 m ρ c (Proc.devRef .tc main_arg4) = W6 m ρ c (Proc.devRef .tc main_arg4) by host_keeps hostOps2).trans (W6_arg4 m ρ c))
theorem W8_arg5 (c : Dev nD) : W8 m ρ c (Proc.devRef .tc main_arg5) = m ((c : Thread nD τ).loc main_arg5) :=
  (W8_of_ne m ρ c main_arg5 (by decide)).trans ((show W7 m ρ c (Proc.devRef .tc main_arg5) = W6 m ρ c (Proc.devRef .tc main_arg5) by host_keeps hostOps2).trans (W6_arg5 m ρ c))

/-! ## Region 0: the embedding -/

/-- The one-hot product of the tokens (as a column) with the table padded by 120 zero rows. -/
def H0 (c : Dev nD) : FVec Ideal S100000x128 .f32 :=
  Cert.Sage.embed (n := 100000) (V := 5120)
    (shapeCast S100000x1 (m ((c : Thread nD τ).loc main_arg0)) shapeCasts_S100000_S100000x1)
    (truncf (F := Ideal) .bf16 (pad S5120x128 ![0, 0] ![120, 0] ![0, 0] (m ((c : Thread nD τ).loc main_arg3))
      (sitofp (F := Ideal) .f32 (constantI S_ 32 0#32)) pads_S5000x128_S5120x128_01200_000 h_S_) bitsLt_bf16_f32)

theorem W3_v2 (c : Dev nD) : W3 m ρ c (Proc.devRef .tc main_v2)
    = shapeCast S100000x1 (m ((c : Thread nD τ).loc main_arg0)) shapeCasts_S100000_S100000x1 := by
  show StableHlo.after hostOps0_2 (StableHlo.after hostOps0_1 (StableHlo.after hostOps0 (W0 m ρ c))) (Proc.devRef .tc main_v2) = _
  simp only [hostOps0, hostOps0_1, hostOps0_2]
  after_results
  rfl

theorem W3_v1 (c : Dev nD) : W3 m ρ c (Proc.devRef .tc main_v1)
    = truncf (F := Ideal) .bf16 (pad S5120x128 ![0, 0] ![120, 0] ![0, 0] (m ((c : Thread nD τ).loc main_arg3))
        (sitofp (F := Ideal) .f32 (constantI S_ 32 0#32)) pads_S5000x128_S5120x128_01200_000 h_S_) bitsLt_bf16_f32 := by
  show StableHlo.after hostOps0_2 (StableHlo.after hostOps0_1 (StableHlo.after hostOps0 (W0 m ρ c))) (Proc.devRef .tc main_v1) = _
  simp only [hostOps0, hostOps0_1, hostOps0_2]
  after_results
  rfl

theorem W4_v3 (c : Dev nD) : W4 m ρ c (Proc.devRef .tc main_v3) = H0 m c := by
  refine (W4_arr m ρ c 2).trans ((Embed0.final (V3 m ρ) c).trans ?_)
  show Cert.Sage.embed (n := 100000) (V := 5120) (W3 m ρ c (Proc.devRef .tc main_v2)) (W3 m ρ c (Proc.devRef .tc main_v1)) = _
  rw [W3_v2, W3_v1]
  rfl

/-! ## The layers -/

/-- One layer of the kernel program over the features `h`: the layer formula of `h`, its neighbour sum, the node
    factors as a column, the layer's weights and its bias as a row. -/
def step (c : Dev nD) (w : FVec Ideal S128x128 .f32) (b : FVec Ideal S128 .f32) (h : FVec Ideal S100000x128 .f32) :
    FVec Ideal S100000x128 .f32 :=
  Cert.Sage.layer (n := 100000) h (agg (m ((c : Thread nD τ).loc main_arg1)) (m ((c : Thread nD τ).loc main_arg2)) h)
    (shapeCast S100000x1 (inv (m ((c : Thread nD τ).loc main_arg2))) shapeCasts_S100000_S100000x1)
    (truncf (F := Ideal) .bf16 w bitsLt_bf16_f32) (shapeCast S1x128 b shapeCasts_S128_S1x128)

def H1 (c : Dev nD) : FVec Ideal S100000x128 .f32 :=
  step m c (w0 (m ((c : Thread nD τ).loc main_arg4))) (b0 (m ((c : Thread nD τ).loc main_arg5))) (H0 m c)
def H2 (c : Dev nD) : FVec Ideal S100000x128 .f32 :=
  step m c (w1 (m ((c : Thread nD τ).loc main_arg4))) (b1 (m ((c : Thread nD τ).loc main_arg5))) (H1 m c)
def H3 (c : Dev nD) : FVec Ideal S100000x128 .f32 :=
  step m c (w2 (m ((c : Thread nD τ).loc main_arg4))) (b2 (m ((c : Thread nD τ).loc main_arg5))) (H2 m c)

/-! ### Before and after region 1 -/

theorem W5_v3 (c : Dev nD) : W5 m ρ c (Proc.devRef .tc main_v3) = H0 m c :=
  (show W5 m ρ c (Proc.devRef .tc main_v3) = W4 m ρ c (Proc.devRef .tc main_v3) by host_keeps hostOps1).trans (W4_v3 m ρ c)

theorem W5_v22 (c : Dev nD) : W5 m ρ c (Proc.devRef .tc main_v22)
    = agg (m ((c : Thread nD τ).loc main_arg1)) (m ((c : Thread nD τ).loc main_arg2)) (H0 m c) := by
  show StableHlo.after hostOps1 (W4 m ρ c) (Proc.devRef .tc main_v22) = _
  simp only [hostOps1]
  after_results_simp
  rw [W4_arg1, W4_arg2, W4_v3]
  rfl

theorem W5_v12 (c : Dev nD) : W5 m ρ c (Proc.devRef .tc main_v12)
    = shapeCast S100000x1 (inv (m ((c : Thread nD τ).loc main_arg2))) shapeCasts_S100000_S100000x1 := by
  show StableHlo.after hostOps1 (W4 m ρ c) (Proc.devRef .tc main_v12) = _
  simp only [hostOps1]
  after_results_simp
  rw [W4_arg2]
  rfl

theorem W5_v25 (c : Dev nD) : W5 m ρ c (Proc.devRef .tc main_v25)
    = truncf (F := Ideal) .bf16 (w0 (m ((c : Thread nD τ).loc main_arg4))) bitsLt_bf16_f32 := by
  show StableHlo.after hostOps1 (W4 m ρ c) (Proc.devRef .tc main_v25) = _
  simp only [hostOps1]
  after_results_simp
  rw [W4_arg4]
  rfl

theorem W5_v28 (c : Dev nD) : W5 m ρ c (Proc.devRef .tc main_v28)
    = shapeCast S1x128 (b0 (m ((c : Thread nD τ).loc main_arg5))) shapeCasts_S128_S1x128 := by
  show StableHlo.after hostOps1 (W4 m ρ c) (Proc.devRef .tc main_v28) = _
  simp only [hostOps1]
  after_results_simp
  rw [W4_arg5]
  rfl

theorem W6_v29 (c : Dev nD) : W6 m ρ c (Proc.devRef .tc main_v29) = H1 m c := by
  refine (W6_arr m ρ c 5).trans ((Layer1.final (V5 m ρ) c).trans ?_)
  show Cert.Sage.layer (n := 100000) (W5 m ρ c (Proc.devRef .tc main_v3)) (W5 m ρ c (Proc.devRef .tc main_v22))
    (W5 m ρ c (Proc.devRef .tc main_v12)) (W5 m ρ c (Proc.devRef .tc main_v25)) (W5 m ρ c (Proc.devRef .tc main_v28)) = _
  rw [W5_v3, W5_v22, W5_v12, W5_v25, W5_v28]
  rfl

theorem W6_v12 (c : Dev nD) : W6 m ρ c (Proc.devRef .tc main_v12)
    = shapeCast S100000x1 (inv (m ((c : Thread nD τ).loc main_arg2))) shapeCasts_S100000_S100000x1 :=
  (W6_arr m ρ c 2).trans (((dat1 (V5 m ρ) c).arrAt_in 2 rfl _).trans ((A_eq1 (V5 m ρ) c 2).trans (W5_v12 m ρ c)))

/-! ### Before and after region 2 -/

theorem W7_v29 (c : Dev nD) : W7 m ρ c (Proc.devRef .tc main_v29) = H1 m c :=
  (show W7 m ρ c (Proc.devRef .tc main_v29) = W6 m ρ c (Proc.devRef .tc main_v29) by host_keeps hostOps2).trans (W6_v29 m ρ c)

theorem W7_v12 (c : Dev nD) : W7 m ρ c (Proc.devRef .tc main_v12)
    = shapeCast S100000x1 (inv (m ((c : Thread nD τ).loc main_arg2))) shapeCasts_S100000_S100000x1 :=
  (show W7 m ρ c (Proc.devRef .tc main_v12) = W6 m ρ c (Proc.devRef .tc main_v12) by host_keeps hostOps2).trans (W6_v12 m ρ c)

theorem W7_v39 (c : Dev nD) : W7 m ρ c (Proc.devRef .tc main_v39)
    = agg (m ((c : Thread nD τ).loc main_arg1)) (m ((c : Thread nD τ).loc main_arg2)) (H1 m c) := by
  show StableHlo.after hostOps2 (W6 m ρ c) (Proc.devRef .tc main_v39) = _
  simp only [hostOps2]
  after_results_simp
  rw [W6_arg1, W6_arg2, W6_v29]
  rfl

theorem W7_v42 (c : Dev nD) : W7 m ρ c (Proc.devRef .tc main_v42)
    = truncf (F := Ideal) .bf16 (w1 (m ((c : Thread nD τ).loc main_arg4))) bitsLt_bf16_f32 := by
  show StableHlo.after hostOps2 (W6 m ρ c) (Proc.devRef .tc main_v42) = _
  simp only [hostOps2]
  after_results_simp
  rw [W6_arg4]
  rfl

theorem W7_v45 (c : Dev nD) : W7 m ρ c (Proc.devRef .tc main_v45)
    = shapeCast S1x128 (b1 (m ((c : Thread nD τ).loc main_arg5))) shapeCasts_S128_S1x128 := by
  show StableHlo.after hostOps2 (W6 m ρ c) (Proc.devRef .tc main_v45) = _
  simp only [hostOps2]
  after_results_simp
  rw [W6_arg5]
  rfl

theorem W8_v46 (c : Dev nD) : W8 m ρ c (Proc.devRef .tc main_v46) = H2 m c := by
  refine (W8_arr m ρ c 5).trans ((Layer2.final (V7 m ρ) c).trans ?_)
  show Cert.Sage.layer (n := 100000) (W7 m ρ c (Proc.devRef .tc main_v29)) (W7 m ρ c (Proc.devRef .tc main_v39))
    (W7 m ρ c (Proc.devRef .tc main_v12)) (W7 m ρ c (Proc.devRef .tc main_v42)) (W7 m ρ c (Proc.devRef .tc main_v45)) = _
  rw [W7_v29, W7_v39, W7_v12, W7_v42, W7_v45]
  rfl

theorem W8_v12 (c : Dev nD) : W8 m ρ c (Proc.devRef .tc main_v12)
    = shapeCast S100000x1 (inv (m ((c : Thread nD τ).loc main_arg2))) shapeCasts_S100000_S100000x1 :=
  (W8_arr m ρ c 2).trans (((dat2 (V7 m ρ) c).arrAt_in 2 rfl _).trans ((A_eq2 (V7 m ρ) c 2).trans (W7_v12 m ρ c)))

/-! ### Before and after region 3 -/

theorem W9_v46 (c : Dev nD) : W9 m ρ c (Proc.devRef .tc main_v46) = H2 m c :=
  (show W9 m ρ c (Proc.devRef .tc main_v46) = W8 m ρ c (Proc.devRef .tc main_v46) by host_keeps hostOps3).trans (W8_v46 m ρ c)

theorem W9_v12 (c : Dev nD) : W9 m ρ c (Proc.devRef .tc main_v12)
    = shapeCast S100000x1 (inv (m ((c : Thread nD τ).loc main_arg2))) shapeCasts_S100000_S100000x1 :=
  (show W9 m ρ c (Proc.devRef .tc main_v12) = W8 m ρ c (Proc.devRef .tc main_v12) by host_keeps hostOps3).trans (W8_v12 m ρ c)

theorem W9_v56 (c : Dev nD) : W9 m ρ c (Proc.devRef .tc main_v56)
    = agg (m ((c : Thread nD τ).loc main_arg1)) (m ((c : Thread nD τ).loc main_arg2)) (H2 m c) := by
  show StableHlo.after hostOps3 (W8 m ρ c) (Proc.devRef .tc main_v56) = _
  simp only [hostOps3]
  after_results_simp
  rw [W8_arg1, W8_arg2, W8_v46]
  rfl

theorem W9_v59 (c : Dev nD) : W9 m ρ c (Proc.devRef .tc main_v59)
    = truncf (F := Ideal) .bf16 (w2 (m ((c : Thread nD τ).loc main_arg4))) bitsLt_bf16_f32 := by
  show StableHlo.after hostOps3 (W8 m ρ c) (Proc.devRef .tc main_v59) = _
  simp only [hostOps3]
  after_results_simp
  rw [W8_arg4]
  rfl

theorem W9_v62 (c : Dev nD) : W9 m ρ c (Proc.devRef .tc main_v62)
    = shapeCast S1x128 (b2 (m ((c : Thread nD τ).loc main_arg5))) shapeCasts_S128_S1x128 := by
  show StableHlo.after hostOps3 (W8 m ρ c) (Proc.devRef .tc main_v62) = _
  simp only [hostOps3]
  after_results_simp
  rw [W8_arg5]
  rfl

/-- The result buffer after the run: three layers over the one-hot product. -/
theorem W10_v63 (c : Dev nD) : W10 m ρ c (Proc.devRef .tc main_v63) = H3 m c := by
  refine (W10_arr m ρ c 5).trans ((Layer3.final (V9 m ρ) c).trans ?_)
  show Cert.Sage.layer (n := 100000) (W9 m ρ c (Proc.devRef .tc main_v46)) (W9 m ρ c (Proc.devRef .tc main_v56))
    (W9 m ρ c (Proc.devRef .tc main_v12)) (W9 m ρ c (Proc.devRef .tc main_v59)) (W9 m ρ c (Proc.devRef .tc main_v62)) = _
  rw [W9_v46, W9_v56, W9_v12, W9_v59, W9_v62]
  rfl

end Cert.KernelIdeal.KValue

end
-- ==== Proof.Lookup.lean ====
/-
  The one-hot product is the table lookup, for tokens that are row numbers of the table.

  The reference gathers row `ann p` of the table: its start index is the token read signed, wrapped if negative
  and clamped into `[0, 4999]`; for a token in `[0, 5000)` neither changes it. The kernel sums `[ann p = v] · tab v q`
  over the 5120 rows of the padded table; the one surviving summand is the padded table's row `ann p`, which is
  the table's own row since `ann p < 5000`.
-/
import proofs.«408994_j13271448945380_1_alg».proof.Proof.RefSide
import Idealize.ShloMosaic.Lib.KernelVsHost
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- The row gather at `(p, q)`: the table at the row its start index names — read signed, clamped into
    `[0, 4999]` — and column `q`. -/
theorem gather_rows_apply {α : Type} (x : S5000x128.Idx → α) (idx : IVec S100000x1 32) (p : Fin 100000) (q : Fin 128) :
    Host.gather gather_S5000x128_S100000x1_S100000x128_1_0_n_n_0_1_1128 x idx (ix2 p q)
      = x (ix2 (⟨min (idx (ix2 p (0 : Fin 1))).toInt.toNat 4999, by omega⟩ : Fin 5000) q) := by
  unfold Host.gather
  refine congrArg x (funext fun a => Fin.ext ?_)
  match a with
  | ⟨0, _⟩ =>
    show gather_S5000x128_S100000x1_S100000x128_1_0_n_n_0_1_1128.start (ix2 p q) idx (0 : Fin 2)
      + gather_S5000x128_S100000x1_S100000x128_1_0_n_n_0_1_1128.batchCoord (ix2 p q) (0 : Fin 2)
      + gather_S5000x128_S100000x1_S100000x128_1_0_n_n_0_1_1128.offCoord (ix2 p q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S5000x128_S100000x1_S100000x128_1_0_n_n_0_1_1128.startIndexMap from List.mem_singleton.mpr rfl)]
    have hsi : gather_S5000x128_S100000x1_S100000x128_1_0_n_n_0_1_1128.siIdx (ix2 p q)
        ⟨List.idxOf (0 : Fin 2) gather_S5000x128_S100000x1_S100000x128_1_0_n_n_0_1_1128.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S5000x128_S100000x1_S100000x128_1_0_n_n_0_1_1128.start (ix2 p q) idx (1 : Fin 2)
      + gather_S5000x128_S100000x1_S100000x128_1_0_n_n_0_1_1128.batchCoord (ix2 p q) (1 : Fin 2)
      + gather_S5000x128_S100000x1_S100000x128_1_0_n_n_0_1_1128.offCoord (ix2 p q) (1 : Fin 2) = q.val
    rw [GatherDims.batchCoord_eq_zero _ _ _ List.not_mem_nil]
    unfold GatherDims.start
    rw [dif_neg (show ¬(1 : Fin 2) ∈ gather_S5000x128_S100000x1_S100000x128_1_0_n_n_0_1_1128.startIndexMap by decide)]
    unfold GatherDims.offCoord
    rw [dif_pos (show (1 : Fin 2) ∈ gather_S5000x128_S100000x1_S100000x128_1_0_n_n_0_1_1128.sKept by decide)]
    simp only [Nat.zero_add]
    rfl

/-- A word that is at least `0` and below `5000` as a signed number is below `5000` as a natural number. -/
theorem toNat_lt_of_signed (a : BitVec 32) (h1 : IntOp.cmpi .sge a 0#32 = 1#1) (h2 : IntOp.cmpi .slt a 5000#32 = 1#1) :
    a.toNat < 5000 := by
  unfold IntOp.cmpi at h1 h2
  rw [StableHlo.Predicate.ofBool_eq_one_iff] at h1 h2
  simp only [BitVec.sle, BitVec.slt, decide_eq_true_eq] at h1 h2
  have e0 : (0#32 : BitVec 32).toInt = 0 := by decide
  have e1 : (5000#32 : BitVec 32).toInt = 5000 := by decide
  rw [e0] at h1; rw [e1] at h2
  rw [BitVec.toInt_eq_toNat_cond] at h1 h2
  have := a.isLt
  split at h1 <;> omega

/-- The lookup at `(p, q)` for a token below 5000: the table's row `ann p`. -/
theorem lookup_apply (ann : IVec S100000 32) (emb : FVec Ideal S5000x128 .f32) (p : Fin 100000) (q : Fin 128)
    (hp : (ann (ix1 p)).toNat < 5000) :
    lookup ann emb (ix2 p q) = emb (ix2 (⟨(ann (ix1 p)).toNat, hp⟩ : Fin 5000) q) := by
  unfold lookup
  have hidx : broadcastInDim S100000x1 ![0] bcast_S100000_S100000x1_0
      (select (cmpi .slt ann (broadcastInDim S100000 ![] bcast_S_S100000 (constantI S_ 32 0#32)))
        (addi ann (broadcastInDim S100000 ![] bcast_S_S100000 (constantI S_ 32 5000#32))) ann) (ix2 p (0 : Fin 1)) = ann (ix1 p) := by
    rw [broadcastInDim_apply _ bcast_S100000_S100000x1_0 _ (ix2 p (0 : Fin 1)) (ix1 p) (fun a => by
      match a with
      | ⟨0, _⟩ => rfl)]
    rw [select_apply]
    have hneg : cmpi .slt ann (broadcastInDim S100000 ![] bcast_S_S100000 (constantI S_ 32 0#32)) (ix1 p) = 0#1 := by
      refine eq_zero_of_ne_one fun h1 => ?_
      have h2 : IntOp.cmpi .slt (ann (ix1 p)) 0#32 = 1#1 := h1
      unfold IntOp.cmpi at h2
      rw [StableHlo.Predicate.ofBool_eq_one_iff] at h2
      simp only [BitVec.slt, decide_eq_true_eq] at h2
      have e0 : (0#32 : BitVec 32).toInt = 0 := by decide
      rw [e0, StableHlo.Predicate.toInt_eq_toNat_of_lt (by omega)] at h2
      omega
    rw [hneg, select_zero]
  rw [gather_rows_apply]
  have key : ∀ v : BitVec 32, v = ann (ix1 p) → min v.toInt.toNat 4999 = (ann (ix1 p)).toNat := by
    intro v hv
    rw [hv, StableHlo.Predicate.toInt_eq_toNat_of_lt (by omega)]
    simp only [Int.toNat_natCast]
    omega
  refine congrArg emb (funext fun a => Fin.ext ?_)
  match a with
  | ⟨0, _⟩ => exact key _ hidx
  | ⟨1, _⟩ => rfl

/-- The one-hot product with the padded table is the lookup, for tokens that are row numbers of the table. -/
theorem embed_eq_lookup (ann : IVec S100000 32) (emb : FVec Ideal S5000x128 .f32)
    (hrange : ∀ p : Fin 100000, (ann (ix1 p)).toNat < 5000)
    (hc : S100000.ShapeCasts S100000x1) (hbits : FTy.bits .bf16 < FTy.bits .f32)
    (hpad : S5000x128.Pads ![0, 0] ![120, 0] ![0, 0] (⟨2, ![5120, 128]⟩ : Shape)) (hS : 0 < S_.numel) (z : FVec Ideal S_ .f32) :
    Cert.Sage.embed (n := 100000) (V := 5120) (shapeCast S100000x1 ann hc)
        (truncf .bf16 (pad (⟨2, ![5120, 128]⟩ : Shape) ![0, 0] ![120, 0] ![0, 0] emb z hpad hS) hbits)
      = lookup ann emb := by
  funext i
  obtain ⟨p, q, rfl⟩ : ∃ (p : Fin 100000) (q : Fin 128), i = ix2 p q := ⟨i 0, i 1, eq_ix2 i⟩
  rw [lookup_apply ann emb p q (hrange p)]
  show Cert.Sage.embedAt (n := 100000) (V := 5120) _ _ p q = _
  unfold Cert.Sage.embedAt
  rw [shapeCast_a_a1_apply]
  have h5120 : (ann (ix1 p)).toNat < 5120 := by have := hrange p; omega
  rw [Cert.Sage.sum_oneHot (by norm_num) (ann (ix1 p)) ⟨(ann (ix1 p)).toNat, h5120⟩ (by simp)]
  rw [truncf_apply]
  exact pad_apply_of_inside _ _ _ emb z hpad hS _ (ix2 (⟨(ann (ix1 p)).toNat, hrange p⟩ : Fin 5000) q) (fun a => by
    match a with
    | ⟨0, _⟩ => show (ann (ix1 p)).toNat = 0 + (ann (ix1 p)).toNat * (0 + 1); omega
    | ⟨1, _⟩ => show q.val = 0 + q.val * (0 + 1); omega)

end Cert.ReferenceIdeal.RefValue

end
-- ==== Proof.PreRange.lean ====
/-
  What the precondition says of the tokens: every token is a row number of the table.

  The precondition ends in `… ∧ all (0 ≤ ann ∧ ann < 5000)`: the last conjunct is a reduction by `and` of the
  element-wise conjunction of two signed comparisons, and it came out `1`; so both comparisons hold at every node, and a
  word that is at least `0` and below `5000` signed is below `5000` unsigned.
-/
import proofs.«408994_j13271448945380_1_alg».proof.Pre_finite_inputs
import proofs.«408994_j13271448945380_1_alg».proof.Proof.Lookup
import Idealize.ShloMosaic.Lib.ReduceAll

noncomputable section

namespace Cert.Pre_finite_inputs.Range

open Cert.Pre_finite_inputs Idealize.ShloMosaic Idealize.ShloMosaic.ValueIdx

instance : Subsingleton S_.Idx := ⟨fun a b => funext fun d => d.elim0⟩

/-- Under the precondition every token, read unsigned, is below 5000. -/
theorem token_lt [Facts] (a0 : IVec S100000 32) (a1 a2 : IVec S1600000 32) (a3 : FVec Ideal S5000x128 .f32)
    (a4 : FVec Ideal S3x128x128 .f32) (a5 : FVec Ideal S3x128 .f32)
    (h : fn (F := Ideal) a0 a1 a2 a3 a4 a5 = fun _ => 1#1) (p : Fin 100000) : (a0 (ix1 p)).toNat < 5000 := by
  have h0 := congrFun h ix0
  dsimp only [fn, fn_part1] at h0
  have h1 := (IntOp.andi_eq_one.1 h0).2
  have h2 := Host.reduce_andi_all _ _ _ _ ix0 h1 (ix1 p)
  obtain ⟨h3, h4⟩ := IntOp.andi_eq_one.1 h2
  exact Cert.ReferenceIdeal.RefValue.toNat_lt_of_signed _ h3 h4

end Cert.Pre_finite_inputs.Range

end
-- ==== Proof.lean ====
/-
  A three-layer graph convolution over 100000 nodes and 1.6 million edges, after an embedding lookup: the Pallas
  program against its jnp reference, on the extended reals.

  The two programs differ in one place only. The kernel looks a token's embedding up as the product of a one-hot row
  with the table padded to 5120 rows; the reference gathers the table's row. For a token that is a row number of
  the table (`0 ≤ ann < 5000`, the precondition's last conjunct) the one-hot sum has one surviving summand, that row:
  `0 · x = 0` on every extended real, so no finiteness is used. After that each layer is the same formula on both
  sides, `max (((h + agg h) · inv) · w + b) 0` with `agg h` the gather / scatter-add over the edges: the kernel's
  matrix product into a zero accumulator and the host's `dot_general` are the same sum over the 128 contracted
  columns, changes of float format are the identity, and the two broadcast spellings of the factors and of the bias
  read the same entries. The kernel side's result is read off its run region by region (each region's array is the
  formula of the arrays it found, because its blocks tile the rows and a row depends on its own row only), the
  reference's off its run; the three frames are the runs themselves.
-/
import proofs.«408994_j13271448945380_1_alg».proof.Defs
import proofs.«408994_j13271448945380_1_alg».proof.Proof.Gen.Kernel
import proofs.«408994_j13271448945380_1_alg».proof.Proof.Gen.Kernel.Skeleton
import proofs.«408994_j13271448945380_1_alg».proof.Proof.Gen.Kernel.Launch
import proofs.«408994_j13271448945380_1_alg».proof.Proof.Gen.Kernel.Points
import proofs.«408994_j13271448945380_1_alg».proof.Proof.Gen.Kernel.Frame
import proofs.«408994_j13271448945380_1_alg».proof.Proof.Gen.KernelIdeal
import proofs.«408994_j13271448945380_1_alg».proof.Proof.Gen.KernelIdeal.Skeleton
import proofs.«408994_j13271448945380_1_alg».proof.Proof.Gen.KernelIdeal.Launch
import proofs.«408994_j13271448945380_1_alg».proof.Proof.Gen.KernelIdeal.Points
import proofs.«408994_j13271448945380_1_alg».proof.Proof.Gen.KernelIdeal.Frame
import proofs.«408994_j13271448945380_1_alg».proof.Proof.Gen.ReferenceIdeal
import proofs.«408994_j13271448945380_1_alg».proof.Proof.Gen.ReferenceIdeal.Run
import proofs.«408994_j13271448945380_1_alg».proof.Proof.Gen.ReferenceIdeal.Read
import proofs.«408994_j13271448945380_1_alg».proof.Proof.Gen.Pre_finite_inputs
import proofs.«408994_j13271448945380_1_alg».proof.Proof.KernelRun
import proofs.«408994_j13271448945380_1_alg».proof.Proof.KernelValue
import proofs.«408994_j13271448945380_1_alg».proof.Proof.RefSide
import proofs.«408994_j13271448945380_1_alg».proof.Proof.Lookup
import proofs.«408994_j13271448945380_1_alg».proof.Proof.PreRange
import Idealize.ShloMosaic.Adequacy
import Idealize.ShloMosaic.Init

noncomputable section

namespace Cert.Proof

open Idealize.ShloMosaic Idealize.ShloMosaic.TcCoe Idealize.SL.Sem
open Cert.ReferenceIdeal.RefValue Cert.KernelIdeal.KValue

/-- The two results are one function of arguments that agree: the reference's three layers over its lookup are the
    kernel's three layers over its one-hot product. -/
theorem result_eq [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v83 (F := Ideal) m' c = H3 m c := by
  have hr : ∀ p : Fin 100000, ((m ((c.tc : Thread Cert.KernelIdeal.nD Cert.KernelIdeal.τ).loc Cert.KernelIdeal.main_arg0)) (ValueIdx.ix1 p)).toNat < 5000 :=
    fun p => Cert.Pre_finite_inputs.Range.token_lt _ _ _ _ _ _ (hpre c) p
  have e0 : lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) = H0 m c :=
    (embed_eq_lookup _ _ hr _ _ _ _ _).symm
  have estep : ∀ (w : FVec Ideal Cert.ReferenceIdeal.S128x128 .f32) (b : FVec Ideal Cert.ReferenceIdeal.S128 .f32)
      (h : FVec Ideal Cert.ReferenceIdeal.S100000x128 .f32),
      layerR (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) w b h = step m c w b h :=
    fun w b h => layerR_eq _ _ w b h _ _ _
  rw [res_eq, h0, h1, h2, h3, h4, h5, e0, estep, estep, estep]
  rfl

theorem algebraic [Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' hpre hagree
  refine ⟨fun c => H3 m c, ?_, ?_⟩
  · exact (θ_run Cert.KernelIdeal.defs _ _).mono (fun r h c => ⟨(h c).1.trans (W10_v63 m ρ c), (h c).2⟩)
      (Cert.KernelIdeal.Run.run_main m ρ)
  · refine (θ_run Cert.ReferenceIdeal.defs _ _).mono (fun r h c => ⟨(h c).1.trans ?_, (h c).2⟩)
      (Cert.ReferenceIdeal.Value.run (F := Ideal) m' ρ')
    exact result_eq m m' hpre c (hagree c).1 (hagree c).2.1 (hagree c).2.2.1 (hagree c).2.2.2.1 (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
